-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x1024 .f32) (main_arg1 : FVec F S1024 .f32) (main_arg2 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S65536x1024 : Shape := ⟨2, ![65536, 1024]⟩
abbrev S1024 : Shape := ⟨1, ![1024]⟩
abbrev S1x1024 : Shape := ⟨2, ![1, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S65536x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S65536x1024.size a
  hwx0_3 : ∀ i : grid0.Coords, EltTy.bits .f32 = 32 ∨ (Rect.block (s := S65536x1024) S2048x1024.size (cc0_transform_3 i) (hinb0_3 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S65536x1024 : Shape := ⟨2, ![65536, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S65536x1024, .f32⟩
  | .hbm, ⟨5, _⟩ => ⟨S65536x1024, .f32⟩
  | .hbm, ⟨6, _⟩ => ⟨S1x1024, .f32⟩
  | .hbm, ⟨7, _⟩ => ⟨S65536x1024, .f32⟩
  | .hbm, ⟨8, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)

variable [Facts₀]

class Facts : Prop extends Facts₀ where

variable [Facts]
-- ==== Proof.Affine.lean ====
/-
  The function both programs compute: a per-feature scale and shift of a matrix,

      out[r, j] = x[r, j] * w[j] + b[j]        (r < 65536, j < 1024),

  read over the extended reals, where the product and the sum are the exact ones.  Nothing here
  needs the entries to be finite: both programs apply the SAME two operations to the SAME operands
  at every index, so no law of arithmetic is used, only where each operand is read.

  The kernel reads `w` and `b` as one-row matrices laid along the rows of a 2048-row block; the
  reference lays them along all 65536 rows.  The lemmas below read each of those layouts at an index.
-/
import Idealize.ShloMosaic.PureOps.Ideal
import Idealize.ShloMosaic.Lib.ValueIdx
import Idealize.ShloMosaic.Lib.ValueLayout
import Idealize.ShloMosaic.Lib.Pipeline.Value

noncomputable section

namespace Cert.Affine

open Idealize.ShloMosaic Idealize.ShloMosaic.ValueIdx

/-- The matrix, a feature vector, the same as a one-row matrix, and a block of 2048 rows. -/
abbrev Mat : Shape := ⟨2, ![65536, 1024]⟩
abbrev Feat : Shape := ⟨1, ![1024]⟩
abbrev OneRow : Shape := ⟨2, ![1, 1024]⟩
abbrev Blk : Shape := ⟨2, ![2048, 1024]⟩

/-- `x[r, j] * w[j] + b[j]`, index by index. -/
def scaleShift (x : FVec Ideal Mat .f32) (w b : FVec Ideal Feat .f32) : FVec Ideal Mat .f32 :=
  fun i => x i * w (ix1 (i 1)) + b (ix1 (i 1))

theorem scaleShift_apply (x : FVec Ideal Mat .f32) (w b : FVec Ideal Feat .f32) (r : Fin 65536) (j : Fin 1024) :
    scaleShift x w b (ix2 r j) = x (ix2 r j) * w (ix1 j) + b (ix1 j) := rfl

section Layouts
variable {α : Type}

/-- A one-row matrix laid along the 2048 rows of a block reads, at `(p, j)`, the row at `j`
    (the cast of a one-row matrix to its own shape changes nothing). -/
theorem rowOverBlock_apply (v : OneRow.Idx → α) (hc : OneRow.ShapeCasts OneRow) (hb : OneRow.Broadcasts Blk)
    (p : Fin 2048) (j : Fin 1024) :
    broadcastTo Blk (shapeCast OneRow v hc) hb (ix2 p j) = v (ix2 (0 : Fin 1) j) := by
  rw [shapeCast_self]
  exact broadcastTo_1b_ab_apply v hb p j

/-- A feature vector reshaped to one row reads, at `(0, j)`, the vector at `j`. -/
theorem featAsRow_apply (x : Feat.Idx → α) (h : Feat.ShapeCasts OneRow) (j : Fin 1024) :
    shapeCast OneRow x h (ix2 (0 : Fin 1) j) = x (ix1 j) :=
  shapeCast_a_1a_apply x h 0 j

/-- A feature vector laid out as one row along axis 1, then along all 65536 rows, reads at
    `(r, j)` the vector at `j`. -/
theorem featOverRows_apply (x : Feat.Idx → α) (h1 : Feat.BroadcastsInDim OneRow ![1])
    (h2 : OneRow.BroadcastsInDim Mat ![0, 1]) (r : Fin 65536) (j : Fin 1024) :
    broadcastInDim Mat ![0, 1] h2 (broadcastInDim OneRow ![1] h1 x) (ix2 r j) = x (ix1 j) := by
  refine (broadcastInDim_apply ![0, 1] h2 _ (ix2 r j) (ix2 (0 : Fin 1) j) fun a => ?_).trans
    (broadcastInDim_apply ![1] h1 x (ix2 (0 : Fin 1) j) (ix1 j) fun a => ?_)
  · match a with
    | ⟨0, _⟩ => rfl
    | ⟨1, _⟩ => rfl
  · match a with
    | ⟨0, _⟩ => rfl

end Layouts

end Cert.Affine

end
-- ==== Proof.RefAffine.lean ====
/-
  The reference is the scale and shift.

  Its six operations lay the weight vector out as one row and then along all 65536 rows, multiply
  the matrix by that, do the same with the bias, and add.  Read at an index `(r, j)` the two
  layouts pick entry `j` of their vector, so the last stage is `x[r, j] * w[j] + b[j]`: the
  specification, with no arithmetic law used.
-/
import proofs.«400468_j15144054686486_3_alg».proof.Proof.Gen.ReferenceIdeal.Read
import proofs.«400468_j15144054686486_3_alg».proof.Proof.Affine

noncomputable section

namespace Cert.ReferenceIdeal.AffineValue

open Cert.ReferenceIdeal Cert.ReferenceIdeal.Read Cert.Affine
open Idealize.ShloMosaic Idealize.ShloMosaic.ValueIdx

/-- Through the two layouts of the weight, index `(r, j)` of the matrix reads entry `j`. -/
theorem weight_index (i : S65536x1024.Idx) : idx_main_v0 (idx_main_v1 i) = ix1 (i 1) :=
  funext fun a => by match a with | ⟨0, _⟩ => rfl

/-- And the same through the two layouts of the bias. -/
theorem bias_index (i : S65536x1024.Idx) : idx_main_v3 (idx_main_v4 i) = ix1 (i 1) :=
  funext fun a => by match a with | ⟨0, _⟩ => rfl

/-- The reference's last stage, over the extended reals, is `x[r, j] * w[j] + b[j]` at every index. -/
theorem reference_eq (x : FVec Ideal Mat .f32) (w b : FVec Ideal Feat .f32) :
    val_main_v5 (F := Ideal) x w b = scaleShift x w b := by
  funext i
  rw [val_main_v5_apply, val_main_v2_apply, val_main_v1_apply, val_main_v0_apply, val_main_v4_apply,
    val_main_v3_apply, weight_index, bias_index]
  rfl

end Cert.ReferenceIdeal.AffineValue

end
-- ==== Proof.KernelAffine.lean ====
/-
  The kernel's result array is the scale and shift.

  The grid has 32 points; point `t` works on rows `2048 t … 2048 t + 2047` of the matrix, with the
  weight and the bias each staged whole as one row.  Its body multiplies the block by the weight
  row laid along the block's rows and adds the bias row laid the same way, so entry `(p, j)` of
  what it writes back is

      x[2048 t + p, j] * w[j] + b[j],

  which is entry `(2048 t + p, j)` of the specification.  Row `r` of the result lies in the block
  of point `r / 2048`, so the 32 blocks cover the array and it ends holding the specification
  everywhere.  The weight and the bias reach the kernel reshaped to one row by the host; read at
  `(0, j)` the reshape is entry `j` of the vector.
-/
import proofs.«400468_j15144054686486_3_alg».proof.Proof.Gen.KernelIdeal.Value
import proofs.«400468_j15144054686486_3_alg».proof.Proof.Affine
import Idealize.ShloMosaic.Lib.StableHlo.Run

set_option maxRecDepth 16384

noncomputable section

namespace Cert.KernelIdeal.AffineValue

open Cert.KernelIdeal Cert.KernelIdeal.Gen Cert.Affine
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-! ## The operands -/

/-- The three input blocks of point `t`, at their literal shapes. -/
abbrev xblk (c : Dev nD) (t : Fin cfg0.N) : Vec Ideal S2048x1024 .f32 := iblk m c 0 t
abbrev wblk (c : Dev nD) (t : Fin cfg0.N) : Vec Ideal S1x1024 .f32 := iblk m c 1 t
abbrev bblk (c : Dev nD) (t : Fin cfg0.N) : Vec Ideal S1x1024 .f32 := iblk m c 2 t

/-- The one-row weight the region finds is the weight vector reshaped. -/
theorem weightRow_eq (c : Dev nD) :
    (V m c main_v0 : S1x1024.Idx → EReal)
      = shapeCast S1x1024 (m ((c : Thread nD τ).loc main_arg1)) shapeCasts_S1024_S1x1024 := by
  unfold V; after_results; rfl

/-- The one-row bias the region finds is the bias vector reshaped. -/
theorem biasRow_eq (c : Dev nD) :
    (V m c main_v1 : S1x1024.Idx → EReal)
      = shapeCast S1x1024 (m ((c : Thread nD τ).loc main_arg2)) shapeCasts_S1024_S1x1024 := by
  unfold V; after_results; rfl

/-! ## Where a block's entry sits in its array -/

theorem zeroOffset : (![0, 0] : Fin 2 → Nat) = fun _ => 0 := funext fun a => by fin_cases a <;> rfl

/-- The block indices, decided over the 32 points: the matrix and the result move down one block
    per point; the two rows stay where they are. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `2048 t + p` of the matrix. -/
def rowOf (t : Fin cfg0.N) (p : Fin 2048) : Fin 65536 :=
  ⟨t.val * 2048 + p.val, by have ht : t.val < 32 := t.isLt; have hp := p.isLt; omega⟩

theorem in_emb (t : Fin cfg0.N) (p : Fin 2048) (q : Fin 1024) :
    ((cfg0.win 0).blk t).view.emb (ix2 p q) = ix2 (rowOf t p) q := by
  obtain ⟨e0, e1, -⟩ := index_facts t
  funext a; apply Fin.ext
  match a with
  | ⟨0, _⟩ => show win0_0.index t (0 : Fin 2) * 2048 + 1 * p.val = t.val * 2048 + p.val; omega
  | ⟨1, _⟩ => show win0_0.index t (1 : Fin 2) * 1024 + 1 * q.val = q.val; omega

theorem out_emb (t : Fin cfg0.N) (p : Fin 2048) (q : Fin 1024) :
    ((cfg0.win 3).blk t).view.emb (ix2 p q) = ix2 (rowOf t p) q := by
  obtain ⟨-, -, -, -, -, -, e6, e7⟩ := index_facts t
  funext a; apply Fin.ext
  match a with
  | ⟨0, _⟩ => show win0_3.index t (0 : Fin 2) * 2048 + 1 * p.val = t.val * 2048 + p.val; omega
  | ⟨1, _⟩ => show win0_3.index t (1 : Fin 2) * 1024 + 1 * q.val = q.val; omega

theorem weight_emb (t : Fin cfg0.N) (q : Fin 1024) :
    ((cfg0.win 1).blk t).view.emb (ix2 (0 : Fin 1) q) = ix2 (0 : Fin 1) q := by
  obtain ⟨-, -, e2, e3, -⟩ := index_facts t
  funext a; apply Fin.ext
  match a with
  | ⟨0, _⟩ => show win0_1.index t (0 : Fin 2) * 1 + 1 * 0 = 0; omega
  | ⟨1, _⟩ => show win0_1.index t (1 : Fin 2) * 1024 + 1 * q.val = q.val; omega

theorem bias_emb (t : Fin cfg0.N) (q : Fin 1024) :
    ((cfg0.win 2).blk t).view.emb (ix2 (0 : Fin 1) q) = ix2 (0 : Fin 1) q := by
  obtain ⟨-, -, -, -, e4, e5, -⟩ := index_facts t
  funext a; apply Fin.ext
  match a with
  | ⟨0, _⟩ => show win0_2.index t (0 : Fin 2) * 1 + 1 * 0 = 0; omega
  | ⟨1, _⟩ => show win0_2.index t (1 : Fin 2) * 1024 + 1 * q.val = q.val; omega

/-! ## The blocks read off the arguments -/

/-- Entry `(p, j)` of the matrix block of point `t` is `x[2048 t + p, j]`. -/
theorem x_read (c : Dev nD) (t : Fin cfg0.N) (p : Fin 2048) (q : Fin 1024) :
    xblk m c t (ix2 p q) = m ((c : Thread nD τ).loc main_arg0) (ix2 (rowOf t p) q) := by
  show V m c main_arg0 (((cfg0.win 0).blk t).view.emb (ix2 p q)) = _
  rw [in_emb t p q]
  exact congrFun (V_main_arg0 m c) _

/-- Entry `(0, j)` of the staged weight row is `w[j]`. -/
theorem w_read (c : Dev nD) (t : Fin cfg0.N) (q : Fin 1024) :
    wblk m c t (ix2 (0 : Fin 1) q) = m ((c : Thread nD τ).loc main_arg1) (ix1 q) := by
  show V m c main_v0 (((cfg0.win 1).blk t).view.emb (ix2 (0 : Fin 1) q)) = _
  rw [weight_emb t q]
  exact (congrFun (weightRow_eq m c) _).trans (featAsRow_apply _ _ q)

/-- Entry `(0, j)` of the staged bias row is `b[j]`. -/
theorem b_read (c : Dev nD) (t : Fin cfg0.N) (q : Fin 1024) :
    bblk m c t (ix2 (0 : Fin 1) q) = m ((c : Thread nD τ).loc main_arg2) (ix1 q) := by
  show V m c main_v1 (((cfg0.win 2).blk t).view.emb (ix2 (0 : Fin 1) q)) = _
  rw [bias_emb t q]
  exact (congrFun (biasRow_eq m c) _).trans (featAsRow_apply _ _ q)

/-! ## What a point writes back -/

/-- Where the generated block function reads its three operands at `(p, j)`: the block at
    `(p, j)`, each row at `(0, j)`. -/
theorem at_x (p : Fin 2048) (q : Fin 1024) : Value.ix3_0 (ix2 p q) = ix2 p q :=
  funext fun a => by match a with | ⟨0, _⟩ => rfl | ⟨1, _⟩ => rfl
theorem at_w (p : Fin 2048) (q : Fin 1024) : Value.ix3_1 (ix2 p q) = ix2 (0 : Fin 1) q :=
  funext fun a => by match a with | ⟨0, _⟩ => rfl | ⟨1, _⟩ => rfl
theorem at_b (p : Fin 2048) (q : Fin 1024) : Value.ix3_2 (ix2 p q) = ix2 (0 : Fin 1) q :=
  funext fun a => by match a with | ⟨0, _⟩ => rfl | ⟨1, _⟩ => rfl

/-- Entry `(p, j)` of the block point `t` leaves is entry `(2048 t + p, j)` of the specification. -/
theorem block_entry (c : Dev nD) (t : Fin cfg0.N) (p : Fin 2048) (q : Fin 1024) :
    Value.E3 (xblk m c t) (wblk m c t) (bblk m c t) (ix2 p q)
      = scaleShift (m ((c : Thread nD τ).loc main_arg0)) (m ((c : Thread nD τ).loc main_arg1))
          (m ((c : Thread nD τ).loc main_arg2)) (ix2 (rowOf t p) q) := by
  have hx : xblk m c t (Value.ix3_0 (ix2 p q)) = m ((c : Thread nD τ).loc main_arg0) (ix2 (rowOf t p) q) :=
    (congrArg (xblk m c t) (at_x p q)).trans (x_read m c t p q)
  have hw : wblk m c t (Value.ix3_1 (ix2 p q)) = m ((c : Thread nD τ).loc main_arg1) (ix1 q) :=
    (congrArg (wblk m c t) (at_w p q)).trans (w_read m c t q)
  have hb : bblk m c t (Value.ix3_2 (ix2 p q)) = m ((c : Thread nD τ).loc main_arg2) (ix1 q) :=
    (congrArg (bblk m c t) (at_b p q)).trans (b_read m c t q)
  show FloatOps.addf (F := Ideal) (φ := .f32)
      (FloatOps.mulf (F := Ideal) (φ := .f32) (xblk m c t (Value.ix3_0 (ix2 p q))) (wblk m c t (Value.ix3_1 (ix2 p q))))
      (bblk m c t (Value.ix3_2 (ix2 p q))) = _
  rw [hx, hw, hb]
  rfl

/-- The block the body leaves, for any operands: its one store covers the block whole, and the
    stored value at an index is the product and sum of the operands read there. -/
theorem out_eq (x0 : Vec Ideal S2048x1024 .f32) (x1 x2 : Vec Ideal S1x1024 .f32) (y : S2048x1024.Idx) :
    out0_3 x0 x1 x2 y = Value.E3 x0 x1 x2 y := by
  unfold out0_3
  simp only [View.ld_unit_zero (S := S2048x1024) zeroOffset, View.ld_unit_zero (S := S1x1024) zeroOffset]
  exact Value.canon3_eq x0 x1 x2 y

/-- WHAT POINT `t` WRITES BACK is block `t` of the specification. -/
theorem flushed_eq (c : Dev nD) (t : Fin cfg0.N) :
    (dats m 0 c).flushed 3 t = ((cfg0.win 3).blk t).view.read (Elt Ideal)
      (scaleShift (m ((c : Thread nD τ).loc main_arg0)) (m ((c : Thread nD τ).loc main_arg1))
        (m ((c : Thread nD τ).loc main_arg2))) := by
  rw [Value.flushed3]
  funext y
  obtain ⟨p, q, rfl⟩ : ∃ (p : Fin 2048) (q : Fin 1024), y = ix2 p q := ⟨y 0, y 1, eq_ix2 y⟩
  show out0_3 (xblk m c t) (wblk m c t) (bblk m c t) (ix2 p q)
    = scaleShift _ _ _ (((cfg0.win 3).blk t).view.emb (ix2 p q))
  rw [out_emb t p q]
  exact (out_eq (xblk m c t) (wblk m c t) (bblk m c t) (ix2 p q)).trans (block_entry m c t p q)

/-! ## The blocks cover the array -/

/-- An index of the result is in point `t`'s block iff each coordinate is in the block's range. -/
theorem mem_block (t : Fin cfg0.N) (i : S65536x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v2).slice (win0_3.rect t)).set ↔ _
  rw [View.set_slice_whole, Rect.mem_set_unit]
  exact Iff.rfl

/-- Row `r` lies in the block of point `r / 2048`. -/
theorem covered (i : S65536x1024.Idx) :
    ∃ t : Fin cfg0.N, (cfg0.win 3).flush t = true ∧ i ∈ ((cfg0.win 3).blk t).view.set := by
  have hi0 : (i 0).val < 65536 := (i 0).isLt
  have hi1 : (i 1).val < 1024 := (i 1).isLt
  have ht : (i 0).val / 2048 < 32 := by omega
  refine ⟨⟨(i 0).val / 2048, ht⟩, flush0_3 _, ?_⟩
  rw [mem_block]
  obtain ⟨-, -, -, -, -, -, e6, e7⟩ := index_facts ⟨(i 0).val / 2048, ht⟩
  have e6' : win0_3.index ⟨(i 0).val / 2048, ht⟩ (0 : Fin 2) = (i 0).val / 2048 := e6
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    omega
  | ⟨1, _⟩ =>
    show win0_3.index ⟨(i 0).val / 2048, ht⟩ (1 : Fin 2) * 1024 ≤ (i 1).val
      ∧ (i 1).val < win0_3.index ⟨(i 0).val / 2048, ht⟩ (1 : Fin 2) * 1024 + 1024
    omega

/-! ## The array after the run, and the run -/

/-- The result array ends holding the specification. -/
theorem final (c : Dev nD) :
    (dats m 0 c).arrAt 3 cfg0.N = scaleShift (m ((c : Thread nD τ).loc main_arg0))
      (m ((c : Thread nD τ).loc main_arg1)) (m ((c : Thread nD τ).loc main_arg2)) :=
  (dats m 0 c).arrAt_eq_of_cover 3 _ (fun t _ => flushed_eq m c t) covered

/-- Every weakly fair execution of the kernel's program terminates with the result at the
    specification of the arguments, and the arguments unchanged. -/
theorem run : θ_run defs (onTc (τ := τ) (main (F := Ideal))) ⟨m, fun _ => 0, ρ⟩ fun r => ∀ c : Dev nD,
      r.2.mem ((c : Thread nD τ).loc main_v2) = scaleShift (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.AffineValue

end
-- ==== Proof.lean ====
/-
  A per-feature scale and shift, `out[r, j] = x[r, j] * w[j] + b[j]` over a 65536 × 1024 matrix: a kernel
  that works through the matrix in 32 blocks of 2048 rows, against the same expression written on whole arrays.

  Over the extended reals both programs apply one product and one sum to the same three operands at every
  index, so they agree without any law of arithmetic and without using that the inputs are finite:
    * the kernel's result array holds `x[r, j] * w[j] + b[j]` at every index (Proof/KernelAffine.lean:
      what each of the 32 points writes back, and that their blocks cover the array);
    * the reference's last stage is the same function (Proof/RefAffine.lean: its two layouts of a
      feature vector read at an index);
    * the function itself and the layout readings are in Proof/Affine.lean.
  The three programs terminate without a fault and leave their arguments as they were; the kernel's
  first argument too, since its result is written into a copy of it.  The idealized kernel is the
  kernel's own text read over the extended reals: nothing was rewritten, so there is nothing to preserve.
-/
import proofs.«400468_j15144054686486_3_alg».proof.Defs
import proofs.«400468_j15144054686486_3_alg».proof.Proof.Gen.Kernel
import proofs.«400468_j15144054686486_3_alg».proof.Proof.Gen.Kernel.Skeleton
import proofs.«400468_j15144054686486_3_alg».proof.Proof.Gen.Kernel.Launch
import proofs.«400468_j15144054686486_3_alg».proof.Proof.Gen.Kernel.Points
import proofs.«400468_j15144054686486_3_alg».proof.Proof.Gen.Kernel.Frame
import proofs.«400468_j15144054686486_3_alg».proof.Proof.Gen.KernelIdeal
import proofs.«400468_j15144054686486_3_alg».proof.Proof.Gen.KernelIdeal.Skeleton
import proofs.«400468_j15144054686486_3_alg».proof.Proof.Gen.KernelIdeal.Launch
import proofs.«400468_j15144054686486_3_alg».proof.Proof.Gen.KernelIdeal.Points
import proofs.«400468_j15144054686486_3_alg».proof.Proof.Gen.KernelIdeal.Frame
import proofs.«400468_j15144054686486_3_alg».proof.Proof.Gen.ReferenceIdeal
import proofs.«400468_j15144054686486_3_alg».proof.Proof.Gen.Pre_finite_inputs
import proofs.«400468_j15144054686486_3_alg».proof.Proof.Gen.KernelIdeal.Value
import proofs.«400468_j15144054686486_3_alg».proof.Proof.Gen.ReferenceIdeal.Run
import proofs.«400468_j15144054686486_3_alg».proof.Proof.Gen.ReferenceIdeal.Read
import proofs.«400468_j15144054686486_3_alg».proof.Proof.Affine
import proofs.«400468_j15144054686486_3_alg».proof.Proof.RefAffine
import proofs.«400468_j15144054686486_3_alg».proof.Proof.KernelAffine
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array and the reference's both
    end at `x[r, j] * w[j] + b[j]` of those arguments. -/
theorem algebraic : Cert.algebraic_KernelIdeal_ReferenceIdeal := by
  intro m ρ m' ρ' _ hagree
  refine ⟨_, Cert.KernelIdeal.AffineValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v5_eq _ _ _).trans
    (Cert.ReferenceIdeal.AffineValue.reference_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
